-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x240x320 : Shape := ⟨4, ![4, 128, 240, 320]⟩
abbrev S240x320 : Shape := ⟨2, ![240, 320]⟩
abbrev S_ : Shape := ⟨0, ![]⟩

class Facts : Prop where
  bcast_S_S4x128x240x320 : S_.BroadcastsInDim S4x128x240x320 (![] : Fin 0 → Fin S4x128x240x320.rank)
  reducesTo_S4x128x240x320_S_d0_1_2_3 : S4x128x240x320.ReducesTo [0, 1, 2, 3] S_
  h_S_ : 0 < S_.numel
  bcast_S_S240x320 : S_.BroadcastsInDim S240x320 (![] : Fin 0 → Fin S240x320.rank)
  reducesTo_S240x320_S_d0_1 : S240x320.ReducesTo [0, 1] S_

variable [Facts]

def fn {F : FTy → Type} [FloatOps F] (main_arg0 : FVec F S4x128x240x320 .f32) (main_arg1 : IVec S240x320 32) : IVec S_ 1 :=
  let main_v0 : FVec F S4x128x240x320 .f32 := Host.absf main_arg0
  let main_cst : FVec F S_ .f32 := constant S_ .f32 0x7F800000#32
  let main_v1 : FVec F S4x128x240x320 .f32 := broadcastInDim S4x128x240x320 ![] bcast_S_S4x128x240x320 main_cst
  let main_v2 : IVec S4x128x240x320 1 := cmpf .olt main_v0 main_v1
  let main_c : IVec S_ 1 := constantI S_ 1 1#1
  let main_v3 : IVec S_ 1 := (fun x v => Host.reduce IntOp.andi x v reducesTo_S4x128x240x320_S_d0_1_2_3 h_S_) main_v2 main_c
  let main_c_0 : IVec S_ 32 := constantI S_ 32 0#32
  let main_v4 : IVec S240x320 32 := broadcastInDim S240x320 ![] bcast_S_S240x320 main_c_0
  let main_v5 : IVec S240x320 1 := cmpi .sge main_arg1 main_v4
  let main_c_1 : IVec S_ 32 := constantI S_ 32 129600#32
  let main_v6 : IVec S240x320 32 := broadcastInDim S240x320 ![] bcast_S_S240x320 main_c_1
  let main_v7 : IVec S240x320 1 := cmpi .slt main_arg1 main_v6
  let main_v8 : IVec S240x320 1 := andi main_v5 main_v7
  let main_c_2 : IVec S_ 1 := constantI S_ 1 1#1
  let main_v9 : IVec S_ 1 := (fun x v => Host.reduce IntOp.andi x v reducesTo_S240x320_S_d0_1 h_S_) main_v8 main_c_2
  let main_v10 : IVec S_ 1 := andi main_v3 main_v9
  main_v10
-- ==== Kernel.lean ====
abbrev S4x128x240x320 : Shape := ⟨4, ![4, 128, 240, 320]⟩
abbrev S240x320 : Shape := ⟨2, ![240, 320]⟩
abbrev S512x76800 : Shape := ⟨2, ![512, 76800]⟩
abbrev S76800x1 : Shape := ⟨2, ![76800, 1]⟩
abbrev S512x131072 : Shape := ⟨2, ![512, 131072]⟩
abbrev S512x1024 : Shape := ⟨2, ![512, 1024]⟩
abbrev S1024x1 : Shape := ⟨2, ![1024, 1]⟩
abbrev S512x2048 : Shape := ⟨2, ![512, 2048]⟩
abbrev S1024x2048 : Shape := ⟨2, ![1024, 2048]⟩
abbrev S512x129600 : Shape := ⟨2, ![512, 129600]⟩
abbrev S4x128x60x36x60 : Shape := ⟨5, ![4, 128, 60, 36, 60]⟩

abbrev nBuf : Space → Nat
  | .hbm => 7
  | .vmem => 7
  | .smem => 0
  | _ => 0

abbrev bufTy : (tb : Table) → Fin (tcTables nBuf tb) → BufTy
  | .hbm, ⟨0, _⟩ => ⟨S4x128x240x320, .f32⟩
  | .hbm, ⟨1, _⟩ => ⟨S240x320, .i32⟩
  | .hbm, ⟨2, _⟩ => ⟨S512x76800, .f32⟩
  | .hbm, ⟨3, _⟩ => ⟨S76800x1, .i32⟩
  | .hbm, ⟨4, _⟩ => ⟨S512x131072, .f32⟩
  | .hbm, ⟨5, _⟩ => ⟨S512x129600, .f32⟩
  | .hbm, ⟨6, _⟩ => ⟨S4x128x60x36x60, .f32⟩
  | .local _ .vmem, ⟨0, _⟩ => ⟨S512x1024, .f32⟩
  | .local _ .vmem, ⟨1, _⟩ => ⟨S512x1024, .f32⟩
  | .local _ .vmem, ⟨2, _⟩ => ⟨S1024x1, .i32⟩
  | .local _ .vmem, ⟨3, _⟩ => ⟨S1024x1, .i32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4x128x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 75], ![false, false]⟩

def k0_cond2 (i : grid0.Coords) : BitVec 1 :=
  let arg1 : BitVec 32 := BitVec.ofNat 32 (i 1).val
  let c74_i32 : BitVec 32 := 74#32
  let v23 : BitVec 1 := Scalar.cmpi .eq arg1 c74_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x128x240x320_S512x76800 : S4x128x240x320.ShapeCasts S512x76800
  shapeCasts_S240x320_S76800x1 : S240x320.ShapeCasts S76800x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x2048_d1_w32 : S1024x2048.Iotas .tc 32 [1]
  broadcasts_S1024x1_S1024x2048 : S1024x1.Broadcasts S1024x2048
  natLt_1_32 : 1 < 32
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S512x131072_S512x129600_0_0 : S512x131072.Slices ![0, 0] S512x129600
  shapeCasts_S512x129600_S4x128x60x36x60 : S512x129600.ShapeCasts S4x128x60x36x60
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x76800.size a
  hwx0_0 : ∀ i : grid0.Coords, EltTy.bits .f32 = 32 ∨ (Rect.block (s := S512x76800) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S76800x1.size a
  hwx0_1 : ∀ i : grid0.Coords, EltTy.bits .i32 = 32 ∨ (Rect.block (s := S76800x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x131072.size a
  hwx0_2 : ∀ i : grid0.Coords, EltTy.bits .f32 = 32 ∨ (Rect.block (s := S512x131072) S512x2048.size (cc0_transform_2 i) (hinb0_2 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x128x240x320 : Shape := ⟨4, ![4, 128, 240, 320]⟩
abbrev S240x320 : Shape := ⟨2, ![240, 320]⟩
abbrev S4x128x76800 : Shape := ⟨3, ![4, 128, 76800]⟩
abbrev S76800 : Shape := ⟨1, ![76800]⟩
abbrev S_ : Shape := ⟨0, ![]⟩
abbrev S4x128x129600 : Shape := ⟨3, ![4, 128, 129600]⟩
abbrev S76800x1 : Shape := ⟨2, ![76800, 1]⟩
abbrev S4x128x60x36x60 : Shape := ⟨5, ![4, 128, 60, 36, 60]⟩

abbrev nBuf : Space → Nat
  | .hbm => 16
  | .vmem => 0
  | .smem => 0
  | _ => 0

abbrev bufTy : (tb : Table) → Fin (tcTables nBuf tb) → BufTy
  | .hbm, ⟨0, _⟩ => ⟨S4x128x240x320, .f32⟩
  | .hbm, ⟨1, _⟩ => ⟨S240x320, .i32⟩
  | .hbm, ⟨2, _⟩ => ⟨S4x128x76800, .f32⟩
  | .hbm, ⟨3, _⟩ => ⟨S76800, .i32⟩
  | .hbm, ⟨4, _⟩ => ⟨S_, .f32⟩
  | .hbm, ⟨5, _⟩ => ⟨S4x128x129600, .f32⟩
  | .hbm, ⟨6, _⟩ => ⟨S_, .i32⟩
  | .hbm, ⟨7, _⟩ => ⟨S76800, .i32⟩
  | .hbm, ⟨8, _⟩ => ⟨S76800, .i1⟩
  | .hbm, ⟨9, _⟩ => ⟨S_, .i32⟩
  | .hbm, ⟨10, _⟩ => ⟨S76800, .i32⟩
  | .hbm, ⟨11, _⟩ => ⟨S76800, .i32⟩
  | .hbm, ⟨12, _⟩ => ⟨S76800, .i32⟩
  | .hbm, ⟨13, _⟩ => ⟨S76800x1, .i32⟩
  | .hbm, ⟨14, _⟩ => ⟨S4x128x129600, .f32⟩
  | .hbm, ⟨15, _⟩ => ⟨S4x128x60x36x60, .f32⟩
  | _, _ => ⟨S4x128x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S4x128x240x320_S4x128x76800 : S4x128x240x320.ShapeCasts S4x128x76800
  shapeCasts_S240x320_S76800 : S240x320.ShapeCasts S76800
  bcast_S_S4x128x129600 : S_.BroadcastsInDim S4x128x129600 (![] : Fin 0 → Fin S4x128x129600.rank)
  bcast_S_S76800 : S_.BroadcastsInDim S76800 (![] : Fin 0 → Fin S76800.rank)
  bcast_S76800_S76800x1_0 : S76800.BroadcastsInDim S76800x1 (![0] : Fin 1 → Fin S76800x1.rank)
  shapeCasts_S4x128x129600_S4x128x60x36x60 : S4x128x129600.ShapeCasts S4x128x60x36x60
  scatter_S4x128x129600_S76800x1_S4x128x76800_01_2_2_1_wf : ScatterDims.WF S4x128x129600 S76800x1 S4x128x76800 [0, 1] [2] [2] 1

variable [Facts₀]

def scatter_S4x128x129600_S76800x1_S4x128x76800_01_2_2_1 : ScatterDims S4x128x129600 S76800x1 S4x128x76800 where
  updateWindowDims := [0, 1]
  insertedWindowDims := [2]
  scatterDimsToOperandDims := [2]
  indexVectorDim := 1
  wf := scatter_S4x128x129600_S76800x1_S4x128x76800_01_2_2_1_wf

class Facts : Prop extends Facts₀ where

variable [Facts]
-- ==== Proof.OneHotSum.lean ====
/-
  A scatter-add written as a sum against one-hot rows, away from any program.

  The kernel never scatters. It compares a column of 32-bit voxel numbers with a row of consecutive column numbers,
  widens the one-bit answers to words and converts them to floats: a 0/1 matrix with a one exactly where the word
  IS the column's number. Multiplying a row of features by that matrix adds up the features whose word hits the
  column. Here, over the extended reals:

  * `entry_eq`: the compare / widen / convert chain of two words is `1` where they are equal and `0` elsewhere;
  * `column_word`: column `j` of the tile that starts at `2048 · q` carries the word of `2048 · q + j`, and a word
    equals it exactly when its value is that number (`hit_ofNat`);
  * `term` / `upTo` / `total`: pixel `n`'s contribution to voxel `v` of row `r`, the contributions of the pixels
    below a bound, and of all 76800 pixels; `upTo_add_tile` adds one tile of 1024 pixels to a partial sum, and
    `total_eq_sum_hits` says the total is the sum of the features over the pixels whose word is `v`.

  Nothing here needs a finite feature: `x · 1 = x` and `x · 0 = 0` hold at the infinities too, and a sum of extended
  reals may be regrouped freely.
-/
import Idealize.ShloMosaic.PureOps.Ideal
import Idealize.ShloMosaic.Lib.ValueIdx
import Idealize.ShloMosaic.Lib.KernelVsHost

noncomputable section

namespace Cert.OneHotSum

open Idealize.ShloMosaic Idealize.ShloMosaic.ValueIdx

/-- `1` when the word's value is `v`, else `0`. -/
def hit (a : BitVec 32) (v : ℕ) : EReal := if a.toNat = v then 1 else 0

/-- The kernel's mask entry: two words compared for equality, the bit widened to a word and converted signed. -/
theorem entry_eq (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  rw [toInt_setWidth_bit]
  unfold IntOp.cmpi
  by_cases h : a = b
  · rw [if_pos h, show (a == b) = true from by simpa using h, show (BitVec.ofBool true).toNat = 1 from by decide]
    norm_num
  · rw [if_neg h, show (a == b) = false from by simpa using h, show (BitVec.ofBool false).toNat = 0 from by decide]
    norm_num

/-- The word a tile's column carries: the lane number `j` plus the tile's first column `2048 · q`. -/
theorem column_word (q j : ℕ) :
    IntOp.addi (BitVec.ofNat 32 j) (Scalar.muli (BitVec.ofNat 32 q) 2048#32) = BitVec.ofNat 32 (q * 2048 + j) := by
  show BitVec.ofNat 32 j + BitVec.ofNat 32 q * 2048#32 = _
  rw [Nat.add_comm, BitVec.ofNat_add, BitVec.ofNat_mul]

/-- A word equals the word of a number below `2 ^ 32` exactly when that number is its value. -/
theorem eq_ofNat_iff (a : BitVec 32) (v : ℕ) (hv : v < 2 ^ 32) : a = BitVec.ofNat 32 v ↔ a.toNat = v := by
  constructor
  · rintro rfl; exact (BitVec.toNat_ofNat _ _).trans (Nat.mod_eq_of_lt hv)
  · intro h; apply BitVec.eq_of_toNat_eq; rw [h, BitVec.toNat_ofNat, Nat.mod_eq_of_lt hv]

/-- So the mask entry against the column of `v` is the hit of `v`. -/
theorem entry_ofNat (a : BitVec 32) (v : ℕ) (hv : v < 2 ^ 32) :
    (FloatOps.sitofp (F := Ideal) .f32 ((IntOp.cmpi .eq a (BitVec.ofNat 32 v)).setWidth 32) : EReal) = hit a v := by
  rw [entry_eq]; unfold hit
  exact if_congr (eq_ofNat_iff a v hv) rfl rfl

/-! ## The sum -/

/-- The features [512, 76800] at row `r` and pixel `n` (zero past the last pixel). -/
def featAt (x : (⟨2, ![512, 76800]⟩ : Shape).Idx → EReal) (r : Fin 512) (n : ℕ) : EReal :=
  if h : n < 76800 then x (ix2 r ⟨n, h⟩) else 0

/-- The voxel word [76800, 1] of pixel `n`. -/
def wordAt (p : (⟨2, ![76800, 1]⟩ : Shape).Idx → BitVec 32) (n : ℕ) : BitVec 32 :=
  if h : n < 76800 then p (ix2 ⟨n, h⟩ 0) else 0

/-- Pixel `n`'s contribution to voxel `v` of row `r`: its feature if its word is `v`, else nothing. -/
def term (x : (⟨2, ![512, 76800]⟩ : Shape).Idx → EReal) (p : (⟨2, ![76800, 1]⟩ : Shape).Idx → BitVec 32)
    (r : Fin 512) (v n : ℕ) : EReal :=
  featAt x r n * hit (wordAt p n) v

/-- The contributions of the pixels below `N`. -/
def upTo (x : (⟨2, ![512, 76800]⟩ : Shape).Idx → EReal) (p : (⟨2, ![76800, 1]⟩ : Shape).Idx → BitVec 32)
    (r : Fin 512) (v N : ℕ) : EReal :=
  ∑ n ∈ Finset.range N, term x p r v n

/-- All of them. -/
abbrev total (x : (⟨2, ![512, 76800]⟩ : Shape).Idx → EReal) (p : (⟨2, ![76800, 1]⟩ : Shape).Idx → BitVec 32)
    (r : Fin 512) (v : ℕ) : EReal :=
  upTo x p r v 76800

theorem upTo_zero (x : (⟨2, ![512, 76800]⟩ : Shape).Idx → EReal) (p : (⟨2, ![76800, 1]⟩ : Shape).Idx → BitVec 32)
    (r : Fin 512) (v : ℕ) : upTo x p r v 0 = 0 := by
  unfold upTo; rw [Finset.range_zero, Finset.sum_empty]

/-- One more tile: the pixels below `1024 · (h + 1)` are those below `1024 · h` and the tile's 1024. -/
theorem upTo_add_tile (x : (⟨2, ![512, 76800]⟩ : Shape).Idx → EReal) (p : (⟨2, ![76800, 1]⟩ : Shape).Idx → BitVec 32)
    (r : Fin 512) (v h : ℕ) :
    upTo x p r v (h * 1024) + ∑ k : Fin 1024, term x p r v (h * 1024 + k.val) = upTo x p r v ((h + 1) * 1024) := by
  unfold upTo
  rw [Fin.sum_univ_eq_sum_range (fun k => term x p r v (h * 1024 + k)) 1024, ← Finset.sum_range_add,
    show h * 1024 + 1024 = (h + 1) * 1024 from by ring]

/-- The total is the sum of the features over the pixels whose word is `v`. -/
theorem total_eq_sum_hits (x : (⟨2, ![512, 76800]⟩ : Shape).Idx → EReal) (p : (⟨2, ![76800, 1]⟩ : Shape).Idx → BitVec 32)
    (r : Fin 512) (v : ℕ) :
    total x p r v = ∑ n ∈ Finset.univ.filter (fun n : Fin 76800 => (p (ix2 n 0)).toNat = v), x (ix2 r n) := by
  unfold total upTo
  rw [Finset.sum_filter, ← Fin.sum_univ_eq_sum_range (fun n => term x p r v n) 76800]
  refine Finset.sum_congr rfl fun n _ => ?_
  unfold term featAt wordAt hit
  rw [dif_pos n.isLt, dif_pos n.isLt]
  by_cases hn : (p (ix2 n 0)).toNat = v
  · rw [if_pos hn, if_pos hn, mul_one]
  · rw [if_neg hn, if_neg hn, mul_zero]

/-! ## The result's row-major position -/

/-- The row-major position of an index of the [4, 128, 60, 36, 60] result: batch-and-channel row `flat / 129600`,
    voxel `flat % 129600`. -/
abbrev flat (i : (⟨5, ![4, 128, 60, 36, 60]⟩ : Shape).Idx) : ℕ :=
  ((((i 0).val * 128 + (i 1).val) * 60 + (i 2).val) * 36 + (i 3).val) * 60 + (i 4).val

theorem flat_lt (i : (⟨5, ![4, 128, 60, 36, 60]⟩ : Shape).Idx) : flat i < 512 * 129600 := by
  have h0 : (i 0).val < 4 := (i 0).isLt
  have h1 : (i 1).val < 128 := (i 1).isLt
  have h2 : (i 2).val < 60 := (i 2).isLt
  have h3 : (i 3).val < 36 := (i 3).isLt
  have h4 : (i 4).val < 60 := (i 4).isLt
  show ((((i 0).val * 128 + (i 1).val) * 60 + (i 2).val) * 36 + (i 3).val) * 60 + (i 4).val < 512 * 129600
  omega

/-- The result's row: which of the 512 batch-and-channel rows an index of the result lies in. -/
abbrev rowOf (i : (⟨5, ![4, 128, 60, 36, 60]⟩ : Shape).Idx) : Fin 512 :=
  ⟨flat i / 129600, by have := flat_lt i; omega⟩

end Cert.OneHotSum

end
-- ==== Proof.TileTrips.lean ====
/-
  One trip of the kernel's grid, as a value.

  At every grid point the body adds, into a [512, 2048] accumulator it carries from point to point, the product of a
  [512, 1024] tile of features with a [1024, 2048] one-hot tile: entry `(k, j)` is `1` when pixel `k`'s voxel number
  is the tile's column `2048 · q + j` (`q` the point's first coordinate) and `0` otherwise. The first trip of a row
  of points clears the accumulator first; the last one also copies it to the output block.

  * `acc_first` / `acc_next` / `acc_last` / `out_last`: what each of the three control cases leaves in the accumulator,
    and the last one in the output block — in every case the one payload `k0_pay2` of the loaded blocks, over the zero
    block on a first trip (at any float instance);
  * `mask_apply`, `trip_apply`: at the extended reals the payload at `(r, j)` is the accumulator there plus the sum
    over the tile's 1024 pixels of the feature times the hit of column `2048 · q + j` (a matmul into a zero block
    is the plain sum of products over the contracted axis; a change of float format is the identity);
  * `trip_eq`: so a trip that finds the partial sums over the pixels below `1024 · h` leaves those below
    `1024 · (h + 1)`.
-/
import proofs.«405086_j89670327206299_1_alg».proof.Proof.Gen.KernelIdeal.Frame
import proofs.«405086_j89670327206299_1_alg».proof.Proof.OneHotSum
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.Tile

open Cert.KernelIdeal Cert.KernelIdeal.Gen Cert.OneHotSum

/-! ## What each control case leaves, at any float instance -/

section Pieces

variable {F : FTy → Type} [FloatOps F]

theorem hz : (![0, 0] : Fin 2 → Nat) = fun _ => 0 := funext fun a => by fin_cases a <;> rfl

/-- A first trip: the accumulator is cleared, read back, and the tile's product added. -/
theorem acc_first (c : Dev nD) (i : grid0.Coords) (a2 : Memref sig .tc .vmem S512x1024 .f32) (h2 : a2.IsWhole)
    (a3 : Memref sig .tc .vmem S1024x1 .i32) (h3 : a3.IsWhole) (a4 : Memref sig .tc .vmem S512x2048 .f32) (h4 : a4.IsWhole)
    (a5 : Memref sig .tc .vmem S512x2048 .f32) (h5 : a5.IsWhole) (hc0 : cond0_0 i) (hc1 : ¬cond0_1 i)
    (x0 : Vec F S512x1024 .f32) (x1 : Vec F S1024x1 .i32) :
    sout0_A_0 c i a2 h2 a3 h3 a4 h4 a5 h5 hc0 hc1 x0 x1 = k0_pay2 i x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x2048) hz, View.readCov_unit_zero (S := S512x2048) _ hz]
  simp only [View.readAt_eq_ld, h2.read_unread, h3.read_unread, View.ld_unit_zero (S := S512x1024) hz,
    View.ld_unit_zero (S := S1024x1) hz]

/-- A middle trip: the tile's product added to what the point before left. -/
theorem acc_next (c : Dev nD) (i : grid0.Coords) (a2 : Memref sig .tc .vmem S512x1024 .f32) (h2 : a2.IsWhole)
    (a3 : Memref sig .tc .vmem S1024x1 .i32) (h3 : a3.IsWhole) (a4 : Memref sig .tc .vmem S512x2048 .f32) (h4 : a4.IsWhole)
    (a5 : Memref sig .tc .vmem S512x2048 .f32) (h5 : a5.IsWhole) (hc0 : ¬cond0_0 i) (hc1 : ¬cond0_1 i)
    (x0 : Vec F S512x1024 .f32) (x1 : Vec F S1024x1 .i32) (xs : Vec F S512x2048 .f32) :
    sout0_B_0 c i a2 h2 a3 h3 a4 h4 a5 h5 hc0 hc1 x0 x1 xs = k0_pay2 i x1 x0 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S512x1024) hz,
    View.ld_unit_zero (S := S1024x1) hz, View.ld_unit_zero (S := S512x2048) hz]

/-- A last trip leaves the same in the accumulator, -/
theorem acc_last (c : Dev nD) (i : grid0.Coords) (a2 : Memref sig .tc .vmem S512x1024 .f32) (h2 : a2.IsWhole)
    (a3 : Memref sig .tc .vmem S1024x1 .i32) (h3 : a3.IsWhole) (a4 : Memref sig .tc .vmem S512x2048 .f32) (h4 : a4.IsWhole)
    (a5 : Memref sig .tc .vmem S512x2048 .f32) (h5 : a5.IsWhole) (hc0 : ¬cond0_0 i) (hc1 : cond0_1 i)
    (x0 : Vec F S512x1024 .f32) (x1 : Vec F S1024x1 .i32) (xs : Vec F S512x2048 .f32) :
    sout0_C_0 c i a2 h2 a3 h3 a4 h4 a5 h5 hc0 hc1 x0 x1 xs = k0_pay2 i x1 x0 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S512x1024) hz,
    View.ld_unit_zero (S := S1024x1) hz, View.ld_unit_zero (S := S512x2048) hz]

/-- and copies it, read back, into the output block. -/
theorem out_last (c : Dev nD) (i : grid0.Coords) (a2 : Memref sig .tc .vmem S512x1024 .f32) (h2 : a2.IsWhole)
    (a3 : Memref sig .tc .vmem S1024x1 .i32) (h3 : a3.IsWhole) (a4 : Memref sig .tc .vmem S512x2048 .f32) (h4 : a4.IsWhole)
    (a5 : Memref sig .tc .vmem S512x2048 .f32) (h5 : a5.IsWhole) (hc0 : ¬cond0_0 i) (hc1 : cond0_1 i)
    (x0 : Vec F S512x1024 .f32) (x1 : Vec F S1024x1 .i32) (xs : Vec F S512x2048 .f32) :
    out0_C_2 c i a2 h2 a3 h3 a4 h4 a5 h5 hc0 hc1 x0 x1 xs = k0_pay2 i x1 x0 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S512x1024) hz,
    View.ld_unit_zero (S := S1024x1) hz, View.ld_unit_zero (S := S512x2048) hz, View.readCov_unit_zero (S := S512x2048) _ hz]

end Pieces

/-! ## The matmul's operand indices -/

theorem lhs_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
theorem lhs_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-! ## The trip at the extended reals -/

/-- The one-hot tile's entry at pixel `k` and column `j`: the pixel's word compared with the column's. -/
theorem mask_apply (q : ℕ) (x1 : IVec S1024x1 32) (k : Fin 1024) (j : Fin 2048) :
    (sitofp (F := Ideal) .f32 (extui 32 (cmpi .eq (broadcastTo S1024x2048 x1 broadcasts_S1024x1_S1024x2048)
        (addi (iota .tc S1024x2048 32 [1] iota_S1024x2048_d1_w32) (broadcast S1024x2048 (Scalar.muli (BitVec.ofNat 32 q) 2048#32)))) natLt_1_32)
      : FVec Ideal S1024x2048 .f32) (ix2 k j)
      = (FloatOps.sitofp (F := Ideal) .f32 ((IntOp.cmpi .eq (x1 (ix2 k 0)) (IntOp.addi (BitVec.ofNat 32 j.val) (Scalar.muli (BitVec.ofNat 32 q) 2048#32))).setWidth 32)) := by
  show FloatOps.sitofp (F := Ideal) .f32 ((IntOp.cmpi .eq (broadcastTo S1024x2048 x1 broadcasts_S1024x1_S1024x2048 (ix2 k j))
      (IntOp.addi (iota .tc S1024x2048 32 [1] iota_S1024x2048_d1_w32 (ix2 k j)) (Scalar.muli (BitVec.ofNat 32 q) 2048#32))).setWidth 32) = _
  rw [broadcastTo_apply x1 broadcasts_S1024x1_S1024x2048 (ix2 k j) (ix2 k 0) (fun a => by
      match a with
      | ⟨0, _⟩ => show k.val = if (1024 : ℕ) = 1 then 0 else k.val; rw [if_neg (by decide)]
      | ⟨1, _⟩ => show (0 : ℕ) = if (1 : ℕ) = 1 then 0 else j.val; rw [if_pos rfl]),
    iota_single_apply]

/-- THE TRIP AT AN INDEX: the accumulator plus the tile's features times their hits of the column. -/
theorem trip_apply (i : grid0.Coords) (x1 : Vec Ideal S1024x1 .i32) (x0 : Vec Ideal S512x1024 .f32) (acc : Vec Ideal S512x2048 .f32)
    (r : Fin 512) (j : Fin 2048) :
    k0_pay2 (F := Ideal) i x1 x0 acc (ix2 r j)
      = acc (ix2 r j) + ∑ k : Fin 1024, x0 (ix2 r k) * hit (x1 (ix2 k 0)) ((i 0).val * 2048 + j.val) := by
  unfold k0_pay2
  dsimp only
  simp only [shapeCast_self]
  rw [addf_apply]
  simp only [matmul]
  rw [Ideal.matmul_constant_zero_apply,
    ← Equiv.sum_comp (contrEquiv1 dot_S512x1024_S1024x2048_S512x2048_1_0_0_1_n_n 1024 rfl rfl).symm]
  refine congrArg (acc (ix2 r j) + ·) (Finset.sum_congr rfl fun k _ => ?_)
  have hk := contrEquiv1_symm_val dot_S512x1024_S1024x2048_S512x2048_1_0_0_1_n_n 1024 rfl rfl k
  have el : dot_S512x1024_S1024x2048_S512x2048_1_0_0_1_n_n.lhsIdx (ix2 r j) ((contrEquiv1 dot_S512x1024_S1024x2048_S512x2048_1_0_0_1_n_n 1024 rfl rfl).symm k) = ix2 r k :=
    funext fun a => Fin.ext (by
      match a with
      | ⟨0, _⟩ => exact lhs_0 _ _
      | ⟨1, _⟩ => exact (lhs_1 _ _).trans hk)
  have er : dot_S512x1024_S1024x2048_S512x2048_1_0_0_1_n_n.rhsIdx (ix2 r j) ((contrEquiv1 dot_S512x1024_S1024x2048_S512x2048_1_0_0_1_n_n 1024 rfl rfl).symm k) = ix2 k j :=
    funext fun a => Fin.ext (by
      match a with
      | ⟨0, _⟩ => exact (rhs_0 _ _).trans hk
      | ⟨1, _⟩ => exact rhs_1 _ _)
  rw [el, er, truncf_apply, truncf_apply, mask_apply, column_word,
    entry_ofNat _ _ (by have h0 : (i 0).val < 64 := (i 0).isLt; have h1 : j.val < 2048 := j.isLt; omega)]

/-- The zero block a first trip starts from. -/
theorem zero_block_apply (y : S512x2048.Idx) : k0_pay1 (F := Ideal) y = 0 := by
  unfold k0_pay1
  simp only [shapeCast_self]
  show Ideal.ofBits .f32 0x00000000#32 = 0
  exact Ideal.ofBits_zero_f32

/-- THE TRIP AS A STEP OF THE SUM: from the contributions of the pixels below `1024 · h` to those below
    `1024 · (h + 1)`, at every column `2048 · q + j` of the point's column tile `q`, when the loaded blocks are tile
    `h` of the features `X` and of the words `P`. -/
theorem trip_eq (X : (⟨2, ![512, 76800]⟩ : Shape).Idx → EReal) (P : (⟨2, ![76800, 1]⟩ : Shape).Idx → BitVec 32)
    (i : grid0.Coords) (q h : ℕ) (hq : (i 0).val = q)
    (x1 : Vec Ideal S1024x1 .i32) (x0 : Vec Ideal S512x1024 .f32) (acc : Vec Ideal S512x2048 .f32)
    (hx0 : ∀ (r : Fin 512) (k : Fin 1024), x0 (ix2 r k) = featAt X r (h * 1024 + k.val))
    (hx1 : ∀ k : Fin 1024, x1 (ix2 k 0) = wordAt P (h * 1024 + k.val))
    (hacc : ∀ (r : Fin 512) (j : Fin 2048), acc (ix2 r j) = upTo X P r (q * 2048 + j.val) (h * 1024)) :
    k0_pay2 (F := Ideal) i x1 x0 acc
      = fun y : S512x2048.Idx => upTo X P (y 0) (q * 2048 + (y 1).val) ((h + 1) * 1024) := by
  funext y
  obtain ⟨r, j, rfl⟩ : ∃ (r : Fin 512) (j : Fin 2048), y = ix2 r j := ⟨y 0, y 1, eq_ix2 y⟩
  rw [trip_apply, hacc, hq]
  simp only [hx0, hx1]
  exact upTo_add_tile X P r (q * 2048 + j.val) h

end Cert.KernelIdeal.Tile

end
-- ==== Proof.GridSums.lean ====
/-
  The accumulator, point by point.

  The grid is 64 column tiles by 75 pixel tiles, the pixel tile moving fastest: point `n` works on column tile `n / 75`
  and pixel tile `n % 75`. The features' window at point `n` is rows 0..511, pixels `1024 · (n % 75)` onwards
  (`feat_blk`), the words' window the same pixels (`word_blk`), the output's block columns `2048 · (n / 75)` onwards
  (`idx_facts`: the printed index maps, decided over the grid).

  `inv`: after point `n` the accumulator holds, at `(r, j)`, the contributions to voxel `2048 · (n / 75) + j` of row `r` of
  the pixels below `1024 · (n % 75 + 1)` — by induction on the point, each point one trip (`Tile.trip_eq`), a first
  trip of a column tile starting from zero, a later one from what the point before left —, and at a last pixel tile the
  output block holds the same.
-/
import proofs.«405086_j89670327206299_1_alg».proof.Proof.TileTrips

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Tile Cert.OneHotSum

variable (m : (ℓ : Loc nD τ sig) → Buf (Elt Ideal) ℓ) (ρ : Dev nD → PrngReg)

/-- The features [512, 76800] and the words [76800, 1] as the region finds them. -/
abbrev feats (c : Dev nD) : Vec Ideal S512x76800 .f32 := V m c main_v0
abbrev words (c : Dev nD) : Vec Ideal S76800x1 .i32 := V m c main_v1

/-- The printed index maps and the first grid coordinate, decided over the 4800 points. -/
theorem idx_facts : ∀ t : Fin cfg0.N,
    win0_0.index t (0 : Fin 2) = 0 ∧ win0_0.index t (1 : Fin 2) = t.val % 75
    ∧ win0_1.index t (0 : Fin 2) = t.val % 75 ∧ win0_1.index t (1 : Fin 2) = 0
    ∧ win0_2.index t (0 : Fin 2) = 0 ∧ win0_2.index t (1 : Fin 2) = t.val / 75
    ∧ (grid0.coords t 0).val = t.val / 75 :=
  (by decide +kernel : ∀ t : Fin grid0.N, _)

/-- The features' block at a point: pixel tile `t % 75`. -/
theorem feat_blk (c : Dev nD) (t : Fin cfg0.N) (r : Fin 512) (k : Fin 1024) :
    (iblk m c 0 t : Vec Ideal S512x1024 .f32) (ix2 r k) = featAt (feats m c) r (t.val % 75 * 1024 + k.val) := by
  obtain ⟨e0, e1, -⟩ := idx_facts t
  have hk : k.val < 1024 := k.isLt
  have hr : r.val < 512 := r.isLt
  have ht : t.val % 75 * 1024 + k.val < 76800 := by omega
  unfold featAt
  rw [dif_pos ht]
  unfold iblk
  rw [View.read_apply]
  show V m c main_v0 (((cfg0.win 0).blk t).view.emb (ix2 r k)) = V m c main_v0 (ix2 r ⟨t.val % 75 * 1024 + k.val, ht⟩)
  refine congrArg (V m c main_v0) (funext fun a => Fin.ext ?_)
  match a with
  | ⟨0, _⟩ => show win0_0.index t (0 : Fin 2) * 512 + 1 * r.val = r.val; rw [e0]; omega
  | ⟨1, _⟩ => show win0_0.index t (1 : Fin 2) * 1024 + 1 * k.val = t.val % 75 * 1024 + k.val; rw [e1]; omega

/-- The words' block at a point: the same pixels. -/
theorem word_blk (c : Dev nD) (t : Fin cfg0.N) (k : Fin 1024) :
    (iblk m c 1 t : Vec Ideal S1024x1 .i32) (ix2 k 0) = wordAt (words m c) (t.val % 75 * 1024 + k.val) := by
  obtain ⟨-, -, e2, e3, -⟩ := idx_facts t
  have hk : k.val < 1024 := k.isLt
  have ht : t.val % 75 * 1024 + k.val < 76800 := by omega
  unfold wordAt
  rw [dif_pos ht]
  unfold iblk
  rw [View.read_apply]
  show V m c main_v1 (((cfg0.win 1).blk t).view.emb (ix2 k 0)) = V m c main_v1 (ix2 ⟨t.val % 75 * 1024 + k.val, ht⟩ 0)
  refine congrArg (V m c main_v1) (funext fun a => Fin.ext ?_)
  match a with
  | ⟨0, _⟩ => show win0_1.index t (0 : Fin 2) * 1024 + 1 * k.val = t.val % 75 * 1024 + k.val; rw [e2]; omega
  | ⟨1, _⟩ => show win0_1.index t (1 : Fin 2) * 1 + 1 * 0 = 0; rw [e3]

/-- What the accumulator holds after point `n`: at `(r, j)`, the contributions to voxel `2048 · (n / 75) + j` of row `r` of
    the pixels of tiles `0 … n % 75`. -/
abbrev partialSums (c : Dev nD) (n : ℕ) : Vec Ideal S512x2048 .f32 :=
  fun y => upTo (feats m c) (words m c) (y 0) (n / 75 * 2048 + (y 1).val) ((n % 75 + 1) * 1024)

/-- THE INVARIANT, by induction on the point: the accumulator at the partial sums; at a last pixel tile the output block too. -/
theorem inv (c : Dev nD) : ∀ (n : ℕ) (h : n < cfg0.N),
    (outsAt0 m c n h).2 = partialSums m c n ∧ (n % 75 = 74 → (outsAt0 m c n h).1 = partialSums m c n)
  | 0, h => by
    have hq : (grid0.coords (⟨0, h⟩ : Fin cfg0.N) 0).val = 0 / 75 := (idx_facts ⟨0, h⟩).2.2.2.2.2.2
    have h74 : ¬(0 : ℕ) % 75 = 74 := by decide
    refine ⟨?_, fun h1 => absurd h1 h74⟩
    rw [outsAt0_A m c ⟨0, h⟩ rfl h74]
    dsimp only
    exact (acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)).trans
      (trip_eq (feats m c) (words m c) (grid0.coords ⟨0, h⟩) (0 / 75) (0 % 75) hq (iblk m c 1 ⟨0, h⟩) (iblk m c 0 ⟨0, h⟩)
        (k0_pay1 (F := Ideal)) (fun r k => feat_blk m c ⟨0, h⟩ r k) (fun k => word_blk m c ⟨0, h⟩ k)
        (fun r j => by rw [zero_block_apply]; exact (upTo_zero _ _ _ _).symm))
  | n + 1, h => by
    have ih := (inv c n (Nat.lt_of_succ_lt h)).1
    have hq : (grid0.coords (⟨n + 1, h⟩ : Fin cfg0.N) 0).val = (n + 1) / 75 := (idx_facts ⟨n + 1, h⟩).2.2.2.2.2.2
    by_cases h0 : (n + 1) % 75 = 0
    · -- a first trip
      have h1 : ¬(n + 1) % 75 = 74 := by omega
      refine ⟨?_, fun h1' => absurd h1' h1⟩
      rw [outsAt0_A m c ⟨n + 1, h⟩ h0 h1]
      dsimp only
      exact (acc_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)).trans
        (trip_eq (feats m c) (words m c) (grid0.coords ⟨n + 1, h⟩) ((n + 1) / 75) ((n + 1) % 75) hq (iblk m c 1 ⟨n + 1, h⟩) (iblk m c 0 ⟨n + 1, h⟩)
          (k0_pay1 (F := Ideal)) (fun r k => feat_blk m c ⟨n + 1, h⟩ r k) (fun k => word_blk m c ⟨n + 1, h⟩ k)
          (fun r j => by rw [zero_block_apply, h0, Nat.zero_mul]; exact (upTo_zero _ _ _ _).symm))
    · -- a later trip: over what the point before left
      have e1 : n / 75 = (n + 1) / 75 := by omega
      have e2 : n % 75 + 1 = (n + 1) % 75 := by omega
      have hprev : ∀ (r : Fin 512) (j : Fin 2048), (outsAt0 m c n (Nat.lt_of_succ_lt h)).2 (ix2 r j)
          = upTo (feats m c) (words m c) r ((n + 1) / 75 * 2048 + j.val) ((n + 1) % 75 * 1024) := fun r j => by
        rw [ih]
        show upTo (feats m c) (words m c) r (n / 75 * 2048 + j.val) ((n % 75 + 1) * 1024) = _
        rw [e1, e2]
      have step := trip_eq (feats m c) (words m c) (grid0.coords ⟨n + 1, h⟩) ((n + 1) / 75) ((n + 1) % 75) hq (iblk m c 1 ⟨n + 1, h⟩)
        (iblk m c 0 ⟨n + 1, h⟩) (outsAt0 m c n (Nat.lt_of_succ_lt h)).2 (fun r k => feat_blk m c ⟨n + 1, h⟩ r k)
        (fun k => word_blk m c ⟨n + 1, h⟩ k) hprev
      by_cases h1 : (n + 1) % 75 = 74
      · rw [outsAt0_C m c ⟨n + 1, h⟩ h0 h1]
        dsimp only
        exact ⟨(acc_last (F := Ideal) c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) scM0_0 (Memref.isWhole_whole _) _ _ (iblk m c 0 ⟨n + 1, h⟩) (iblk m c 1 ⟨n + 1, h⟩)
            (outsAt0 m c n (Nat.lt_of_succ_lt h)).2).trans step,
          fun _ => (out_last (F := Ideal) c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) scM0_0 (Memref.isWhole_whole _) _ _ (iblk m c 0 ⟨n + 1, h⟩) (iblk m c 1 ⟨n + 1, h⟩)
            (outsAt0 m c n (Nat.lt_of_succ_lt h)).2).trans step⟩
      · refine ⟨?_, fun h1' => absurd h1' h1⟩
        rw [outsAt0_B m c ⟨n + 1, h⟩ h0 h1]
        dsimp only
        exact (acc_next (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2).trans step

end Cert.KernelIdeal.RunValue

end
-- ==== Proof.KernelValue.lean ====
/-
  The idealized kernel's run, read as a value.

  Each column tile's last point writes its output block back, and that block holds the column tile's totals over all 75
  pixel tiles (`GridSums.inv`). So:

  * `flushed_eq`, `cover`, `final`: each write-back is its block of ONE array, the totals over all 76800 pixels at every
    `(r, v)` of [512, 131072]; the 64 written blocks tile that array; the region's result array ends holding it;
  * `feats_eq`, `words_eq`: the kernel's two operands are the reshaped arguments;
  * `tail_eq`, `run`: the program's result is that array's first 129600 columns, reshaped to [4, 128, 60, 36, 60];
  * `result_apply`: read at an index, the total of the index's row over the pixels whose word is the index's voxel.
-/
import proofs.«405086_j89670327206299_1_alg».proof.Proof.GridSums
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Tile Cert.OneHotSum

variable (m : (ℓ : Loc nD τ sig) → Buf (Elt Ideal) ℓ) (ρ : Dev nD → PrngReg)

/-! ## The result array of the region -/

/-- What the region's result array [512, 131072] ends holding: at `(r, v)` the total over all pixels. -/
abbrev wholeSums (c : Dev nD) : Vec Ideal S512x131072 .f32 :=
  fun y => total (feats m c) (words m c) (y 0) (y 1).val

theorem upTo_congr (X : (⟨2, ![512, 76800]⟩ : Shape).Idx → EReal) (P : (⟨2, ![76800, 1]⟩ : Shape).Idx → BitVec 32)
    {r r' : Fin 512} {v v' N N' : ℕ} (hr : r'.val = r.val) (hv : v' = v) (hN : N' = N) :
    upTo X P r v N = upTo X P r' v' N' := by
  obtain rfl : r' = r := Fin.ext hr
  rw [hv, hN]

-- the block's index type and the array's are one type only once the window's definitions are unfolded, a long chain
set_option maxRecDepth 1000000 in
/-- What a write-back writes is its block of `wholeSums`. -/
theorem flushed_eq (c : Dev nD) (t : Fin cfg0.N) (hf : (cfg0.win 2).flush t = true) :
    (dats m 0 c).flushed 2 t = ((cfg0.win 2).blk t).view.read (Elt Ideal) (wholeSums m c) := by
  have h1 : t.val % 75 = 74 := (flush0_2 t).mp hf
  obtain ⟨-, -, -, -, e4, e5, -⟩ := idx_facts t
  show (cfg0.win 2).cut (grid0.coords t) ((dats m 0 c).after 2 t) = _
  rw [after0_2, (inv m c t.val t.isLt).2 h1]
  funext y
  rw [View.read_apply]
  show partialSums m c t.val ((cfg0.win 2).xinj (grid0.coords t) y) = wholeSums m c (((cfg0.win 2).blk t).view.emb y)
  refine upTo_congr (feats m c) (words m c) ?_ ?_ ?_
  · show win0_2.index t (0 : Fin 2) * 512 + 1 * (y 0).val = (y 0).val
    rw [e4]; omega
  · show win0_2.index t (1 : Fin 2) * 2048 + 1 * (y 1).val = t.val / 75 * 2048 + (y 1).val
    rw [e5]; omega
  · omega

/-- An index of the array is in a point's block iff each coordinate is in the block's range. -/
theorem mem_blk (t : Fin cfg0.N) (i : S512x131072.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Every index of the array is in the block written back at the last pixel tile of its column tile. -/
theorem cover (i : S512x131072.Idx) :
    ∃ t : Fin cfg0.N, (cfg0.win 2).flush t = true ∧ i ∈ ((cfg0.win 2).blk t).view.set := by
  have hN : cfg0.N = 4800 := N_0
  have hi0 : (i 0).val < 512 := (i 0).isLt
  have hi1 : (i 1).val < 131072 := (i 1).isLt
  have hlt : (i 1).val / 2048 * 75 + 74 < cfg0.N := by rw [hN]; omega
  obtain ⟨-, -, -, -, e4, e5, -⟩ := idx_facts ⟨(i 1).val / 2048 * 75 + 74, hlt⟩
  refine ⟨⟨(i 1).val / 2048 * 75 + 74, hlt⟩, (flush0_2 _).mpr (by show ((i 1).val / 2048 * 75 + 74) % 75 = 74; omega), ?_⟩
  rw [mem_blk]
  intro a
  match a with
  | ⟨0, _⟩ =>
    show win0_2.index ⟨(i 1).val / 2048 * 75 + 74, hlt⟩ (0 : Fin 2) * 512 ≤ (i 0).val
      ∧ (i 0).val < win0_2.index ⟨(i 1).val / 2048 * 75 + 74, hlt⟩ (0 : Fin 2) * 512 + 512
    rw [e4]; omega
  | ⟨1, _⟩ =>
    show win0_2.index ⟨(i 1).val / 2048 * 75 + 74, hlt⟩ (1 : Fin 2) * 2048 ≤ (i 1).val
      ∧ (i 1).val < win0_2.index ⟨(i 1).val / 2048 * 75 + 74, hlt⟩ (1 : Fin 2) * 2048 + 2048
    rw [e5]
    show ((i 1).val / 2048 * 75 + 74) / 75 * 2048 ≤ (i 1).val ∧ (i 1).val < ((i 1).val / 2048 * 75 + 74) / 75 * 2048 + 2048
    omega

/-- THE REGION'S RESULT ARRAY after the run. -/
theorem final (c : Dev nD) : (dats m 0 c).arrAt 2 cfg0.N = wholeSums m c :=
  (dats m 0 c).arrAt_eq_of_cover 2 (wholeSums m c) (flushed_eq m c) cover

/-! ## The program around the region -/

/-- The kernel's first operand is the features reshaped to [512, 76800]. -/
theorem feats_eq (c : Dev nD) :
    feats m c = shapeCast S512x76800 (m ((c : Thread nD τ).loc main_arg0)) shapeCasts_S4x128x240x320_S512x76800 := by
  show StableHlo.after hostOps0 (fun b => m (c, b)) (Proc.devRef .tc main_v0) = _
  after_results
  rfl

/-- Its second the voxel numbers reshaped to a column [76800, 1]. -/
theorem words_eq (c : Dev nD) :
    words m c = shapeCast S76800x1 (m ((c : Thread nD τ).loc main_arg1)) shapeCasts_S240x320_S76800x1 := by
  show StableHlo.after hostOps0 (fun b => m (c, b)) (Proc.devRef .tc main_v1) = _
  after_results
  rfl

/-- THE RESULT as a function of the two arguments: the totals over all pixels at `(r, v)`, the first 129600 columns kept,
    reshaped to [4, 128, 60, 36, 60]. -/
abbrev result (x0 : FVec Ideal S4x128x240x320 .f32) (x1 : IVec S240x320 32) : FVec Ideal S4x128x60x36x60 .f32 :=
  shapeCast S4x128x60x36x60 (extractStridedSlice S512x129600 ![0, 0]
      (fun y : S512x131072.Idx => total (shapeCast S512x76800 x0 shapeCasts_S4x128x240x320_S512x76800)
        (shapeCast S76800x1 x1 shapeCasts_S240x320_S76800x1) (y 0) (y 1).val)
      slices_S512x131072_S512x129600_0_0) shapeCasts_S512x129600_S4x128x60x36x60

/-- The two host operations after the region, applied to the region's result array. -/
theorem tail_eq (c : Dev nD) :
    Pipeline.afterTail₀ cfgs (dats m) 0 (V0 m) [hostOps1] c main_v4
      = result (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = wholeSums m c := (Pipeline.withArrays_arr spec0 launch0.win.arr_inj c _ _ 2).trans (final m c)
  have hs : wholeSums m c = fun y : S512x131072.Idx =>
      total (shapeCast S512x76800 (m ((c : Thread nD τ).loc main_arg0)) shapeCasts_S4x128x240x320_S512x76800)
        (shapeCast S76800x1 (m ((c : Thread nD τ).loc main_arg1)) shapeCasts_S240x320_S76800x1) (y 0) (y 1).val := by
    show (fun y : S512x131072.Idx => total (feats m c) (words m c) (y 0) (y 1).val) = _
    rw [feats_eq, words_eq]
  rw [hw, hs]
  rfl

/-- THE RUN, READ: every weakly fair execution of the idealized kernel's program ends with the result at `result` of the
    arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The result at an index: the total, over all pixels, of the index's row at the index's voxel. -/
theorem result_apply (x0 : FVec Ideal S4x128x240x320 .f32) (x1 : IVec S240x320 32) (i : S4x128x60x36x60.Idx) :
    result x0 x1 i = total (shapeCast S512x76800 x0 shapeCasts_S4x128x240x320_S512x76800)
      (shapeCast S76800x1 x1 shapeCasts_S240x320_S76800x1) (rowOf i) (flat i % 129600) := by
  have hf := flat_lt i
  show shapeCast S4x128x60x36x60 _ shapeCasts_S512x129600_S4x128x60x36x60 i = _
  rw [shapeCast_apply _ shapeCasts_S512x129600_S4x128x60x36x60 i
    (ix2 (rowOf i) (⟨flat i % 129600, by omega⟩ : Fin 129600)) (by
      rewrite [Shape.rowMajor_val_two, Shape.rowMajor_val_five]
      show flat i / 129600 * 129600 + flat i % 129600 = flat i
      omega)]
  exact extractStridedSlice_apply ![0, 0] _ slices_S512x131072_S512x129600_0_0 _
    (ix2 (rowOf i) (⟨flat i % 129600, by omega⟩ : Fin 131072)) (fun a => by
      match a with
      | ⟨0, _⟩ => show flat i / 129600 = 0 + flat i / 129600; omega
      | ⟨1, _⟩ => show flat i % 129600 = 0 + flat i % 129600; omega)

end Cert.KernelIdeal.RunValue

end
-- ==== Proof.IndexRange.lean ====
/-
  What the precondition says of the voxel numbers.

  The precondition is the conjunction of two `all`s: every feature is finite, and every voxel number `p` satisfies
  `0 ≤ p` and `p < 129600` as signed 32-bit integers. Only the second is used: outside that range the reference's
  scatter re-reads a negative number from the end of the voxel axis and drops one past it, which the kernel's
  comparison against column numbers does not do. Read back element by element (`word_range`), and as a bound on the
  word's unsigned value (`word_toNat_lt`): a nonnegative signed word is its unsigned value.
-/
import proofs.«405086_j89670327206299_1_alg».proof.Pre_finite_inputs
import proofs.«405086_j89670327206299_1_alg».proof.Proof.Gen.Pre_finite_inputs
import Idealize.ShloMosaic.Lib.ReduceAll
import Idealize.ShloMosaic.Lib.ValueIdx

noncomputable section

namespace Cert.IndexRange

open Idealize.ShloMosaic Cert.Pre_finite_inputs

instance : Subsingleton S_.Idx := ⟨fun _ _ => funext fun d => d.elim0⟩

/-- Every voxel number is in `[0, 129600)` as a signed integer. -/
theorem word_range {F : FTy → Type} [FloatOps F] (x0 : FVec F S4x128x240x320 .f32) (x1 : IVec S240x320 32)
    (h : Cert.Pre_finite_inputs.fn (F := F) x0 x1 = fun _ => 1#1) (i : S240x320.Idx) :
    0 ≤ (x1 i).toInt ∧ (x1 i).toInt < 129600 := by
  have h0 := congrFun h ValueIdx.ix0
  dsimp only [Cert.Pre_finite_inputs.fn] at h0
  have h1 := (IntOp.andi_eq_one.1 h0).2
  have h2 := Host.reduce_andi_all _ _ _ _ _ h1 i
  obtain ⟨hge, hlt⟩ := IntOp.andi_eq_one.1 h2
  have e0 : (0#32 : BitVec 32).toInt = 0 := by decide
  have e1 : (129600#32 : BitVec 32).toInt = 129600 := by decide
  constructor
  · have := IntOp.cmpi_sge.1 hge
    exact e0 ▸ this
  · have := IntOp.cmpi_slt.1 hlt
    exact e1 ▸ this

/-- A word that is nonnegative as a signed integer has that integer as its unsigned value. -/
theorem toNat_of_nonneg {a : BitVec 32} (h : 0 ≤ a.toInt) : (a.toNat : ℤ) = a.toInt := by
  rw [BitVec.toInt_eq_toNat_cond] at h ⊢
  have := a.isLt
  split at h <;> split <;> omega

/-- So every voxel number's unsigned value is below 129600. -/
theorem word_toNat_lt {F : FTy → Type} [FloatOps F] (x0 : FVec F S4x128x240x320 .f32) (x1 : IVec S240x320 32)
    (h : Cert.Pre_finite_inputs.fn (F := F) x0 x1 = fun _ => 1#1) (i : S240x320.Idx) : (x1 i).toNat < 129600 := by
  obtain ⟨h0, h1⟩ := word_range x0 x1 h i
  have := toNat_of_nonneg h0
  omega

end Cert.IndexRange

end
-- ==== Proof.RefScatter.lean ====
/-
  The reference, read at an index of its result.

  The reference first re-reads a negative voxel number from the end of the axis (`p + 129600` where `p < 0`) — under
  the precondition no number is negative, so the numbers pass through unchanged (`words_eq`) — and then scatters:
  update `(b, c, n)` of the features, reshaped to [4, 128, 76800], is added into element `(b, c, p n)` of a zero array
  when `0 ≤ p n < 129600`, and dropped otherwise (`lands`: the scatter's dimension numbers unfolded once, axis by
  axis). At the extended reals the scatter's result at `(b, c, v)` is the operand there plus the sum of the updates
  that land there (`scatter_apply`), which is the sum of row `128 b + c` of the features over the pixels whose number
  is `v`: the total of `OneHotSum` (`ref_apply`).
-/
import proofs.«405086_j89670327206299_1_alg».proof.Proof.Gen.ReferenceIdeal.Read
import proofs.«405086_j89670327206299_1_alg».proof.Proof.OneHotSum
import proofs.«405086_j89670327206299_1_alg».proof.Proof.IndexRange
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.Read Cert.OneHotSum Cert.IndexRange

/-! ## The scatter's dimension numbers, axis by axis

Operand axes 0 and 1 are window axes (the update's own axes 0 and 1); operand axis 2 is the scattered one, its start read
off the index array at `(n, 0)` for the update's third coordinate `n`. -/

theorem start_0 (j : S4x128x76800.Idx) (idx : IVec S76800x1 32) :
    scatter_S4x128x129600_S76800x1_S4x128x76800_01_2_2_1.start j idx 0 = 0 := by
  unfold ScatterDims.start
  rw [dif_neg (show ¬(0 : Fin S4x128x129600.rank) ∈ scatter_S4x128x129600_S76800x1_S4x128x76800_01_2_2_1.scatterDimsToOperandDims by decide)]
theorem start_1 (j : S4x128x76800.Idx) (idx : IVec S76800x1 32) :
    scatter_S4x128x129600_S76800x1_S4x128x76800_01_2_2_1.start j idx 1 = 0 := by
  unfold ScatterDims.start
  rw [dif_neg (show ¬(1 : Fin S4x128x129600.rank) ∈ scatter_S4x128x129600_S76800x1_S4x128x76800_01_2_2_1.scatterDimsToOperandDims by decide)]
theorem start_2 (j : S4x128x76800.Idx) (idx : IVec S76800x1 32) :
    scatter_S4x128x129600_S76800x1_S4x128x76800_01_2_2_1.start j idx 2 = (idx (ix2 (j 2) 0)).toInt := by
  unfold ScatterDims.start
  rw [dif_pos (show (2 : Fin S4x128x129600.rank) ∈ scatter_S4x128x129600_S76800x1_S4x128x76800_01_2_2_1.scatterDimsToOperandDims by decide)]
  refine congrArg (fun k => (idx k).toInt) (funext fun b => Fin.ext ?_)
  match b with
  | ⟨0, _⟩ => rfl
  | ⟨1, _⟩ => rfl

theorem window_0 (j : S4x128x76800.Idx) : scatter_S4x128x129600_S76800x1_S4x128x76800_01_2_2_1.window j 0 = (j 0).val := by
  unfold ScatterDims.window
  rw [dif_pos (show (0 : Fin S4x128x129600.rank) ∈ scatter_S4x128x129600_S76800x1_S4x128x76800_01_2_2_1.sKept by decide)]
  rfl
theorem window_1 (j : S4x128x76800.Idx) : scatter_S4x128x129600_S76800x1_S4x128x76800_01_2_2_1.window j 1 = (j 1).val := by
  unfold ScatterDims.window
  rw [dif_pos (show (1 : Fin S4x128x129600.rank) ∈ scatter_S4x128x129600_S76800x1_S4x128x76800_01_2_2_1.sKept by decide)]
  rfl
theorem window_2 (j : S4x128x76800.Idx) : scatter_S4x128x129600_S76800x1_S4x128x76800_01_2_2_1.window j 2 = 0 := by
  unfold ScatterDims.window
  rw [dif_neg (show ¬(2 : Fin S4x128x129600.rank) ∈ scatter_S4x128x129600_S76800x1_S4x128x76800_01_2_2_1.sKept by decide)]

/-- Where an update lands: update `(b, c, n)` whose number is in range lands at `(b, c, number)`. -/
theorem lands (j : S4x128x76800.Idx) (idx : IVec S76800x1 32) (h0 : 0 ≤ (idx (ix2 (j 2) 0)).toInt)
    (h1 : (idx (ix2 (j 2) 0)).toInt < 129600) :
    scatter_S4x128x129600_S76800x1_S4x128x76800_01_2_2_1.resultIdx? j idx
      = some (ix3 (j 0) (j 1) ⟨(idx (ix2 (j 2) 0)).toNat, by have := toNat_of_nonneg h0; omega⟩) := by
  have hj0 : (j 0).val < 4 := (j 0).isLt
  have hj1 : (j 1).val < 128 := (j 1).isLt
  unfold ScatterDims.resultIdx?
  rw [dif_pos (fun a => by
    match a with
    | ⟨0, _⟩ => rw [show (⟨0, _⟩ : Fin S4x128x129600.rank) = 0 from rfl, start_0, window_0]; show (0 : ℤ) ≤ 0 + ((j 0).val : ℤ) ∧ 0 + ((j 0).val : ℤ) < 4; omega
    | ⟨1, _⟩ => rw [show (⟨1, _⟩ : Fin S4x128x129600.rank) = 1 from rfl, start_1, window_1]; show (0 : ℤ) ≤ 0 + ((j 1).val : ℤ) ∧ 0 + ((j 1).val : ℤ) < 128; omega
    | ⟨2, _⟩ => rw [show (⟨2, _⟩ : Fin S4x128x129600.rank) = 2 from rfl, start_2, window_2]; show (0 : ℤ) ≤ (idx (ix2 (j 2) 0)).toInt + ((0 : ℕ) : ℤ) ∧ (idx (ix2 (j 2) 0)).toInt + ((0 : ℕ) : ℤ) < 129600; omega)]
  refine congrArg some (funext fun a => Fin.ext ?_)
  have hn := toNat_of_nonneg h0
  match a with
  | ⟨0, _⟩ => show (scatter_S4x128x129600_S76800x1_S4x128x76800_01_2_2_1.start j idx 0 + (scatter_S4x128x129600_S76800x1_S4x128x76800_01_2_2_1.window j 0 : ℤ)).toNat = (j 0).val; rw [start_0, window_0]; omega
  | ⟨1, _⟩ => show (scatter_S4x128x129600_S76800x1_S4x128x76800_01_2_2_1.start j idx 1 + (scatter_S4x128x129600_S76800x1_S4x128x76800_01_2_2_1.window j 1 : ℤ)).toNat = (j 1).val; rw [start_1, window_1]; omega
  | ⟨2, _⟩ => show (scatter_S4x128x129600_S76800x1_S4x128x76800_01_2_2_1.start j idx 2 + (scatter_S4x128x129600_S76800x1_S4x128x76800_01_2_2_1.window j 2 : ℤ)).toNat = (idx (ix2 (j 2) 0)).toNat; rw [start_2, window_2]; omega

/-- The scatter-add at voxel `v` of row `(b, c)`: the operand there plus the updates `(b, c, n)` whose number is `v`. -/
theorem scatter_apply (x : FVec Ideal S4x128x129600 .f32) (idx : IVec S76800x1 32) (upd : FVec Ideal S4x128x76800 .f32)
    (hidx : ∀ n : Fin 76800, 0 ≤ (idx (ix2 n 0)).toInt ∧ (idx (ix2 n 0)).toInt < 129600)
    (b : Fin 4) (c : Fin 128) (v : Fin 129600) :
    Host.scatterAdd scatter_S4x128x129600_S76800x1_S4x128x76800_01_2_2_1 x idx upd (ix3 b c v)
      = x (ix3 b c v) + ∑ n ∈ Finset.univ.filter (fun n : Fin 76800 => (idx (ix2 n 0)).toNat = v.val), upd (ix3 b c n) := by
  show Ideal.hostScatterAdd scatter_S4x128x129600_S76800x1_S4x128x76800_01_2_2_1 x idx upd (ix3 b c v) = _
  unfold Ideal.hostScatterAdd
  refine congrArg (x (ix3 b c v) + ·) ?_
  have hset : Finset.univ.filter (fun j : S4x128x76800.Idx =>
        scatter_S4x128x129600_S76800x1_S4x128x76800_01_2_2_1.resultIdx? j idx = some (ix3 b c v))
      = (Finset.univ.filter (fun n : Fin 76800 => (idx (ix2 n 0)).toNat = v.val)).map
          ⟨fun n => (ix3 b c n : S4x128x76800.Idx), fun n n' h => congrFun h 2⟩ := by
    ext j
    simp only [Finset.mem_filter, Finset.mem_univ, true_and, Finset.mem_map, Function.Embedding.coeFn_mk]
    rw [lands j idx (hidx (j 2)).1 (hidx (j 2)).2]
    constructor
    · intro h
      have h' := Option.some.inj h
      have e0 : j 0 = b := congrFun h' 0
      have e1 : j 1 = c := congrFun h' 1
      have e2 : (idx (ix2 (j 2) 0)).toNat = v.val := congrArg Fin.val (congrFun h' 2)
      exact ⟨j 2, e2, by rw [← e0, ← e1]; exact (eq_ix3 j).symm⟩
    · rintro ⟨n, hn, rfl⟩
      exact congrArg some (funext fun a => by
        match a with
        | ⟨0, _⟩ => rfl
        | ⟨1, _⟩ => rfl
        | ⟨2, _⟩ => exact Fin.ext hn)
  rw [hset, Finset.sum_map]
  rfl

/-! ## The operands of the scatter -/

/-- Under the range fact the negative-number re-read does nothing: the index array at `(n, 0)` is pixel `n`'s number. -/
theorem words_eq (x1 : IVec S240x320 32) (hx : ∀ i, 0 ≤ (x1 i).toInt ∧ (x1 i).toInt < 129600) (n : Fin 76800) :
    val_main_v8 (F := Ideal) x1 (ix2 n 0) = x1 (idx_main_v1 (ix1 n)) := by
  have hw := hx (idx_main_v1 (ix1 n))
  have e8 : idx_main_v8 (ix2 n 0) = ix1 n := funext fun a => by
    match a with
    | ⟨0, _⟩ => rfl
  rw [val_main_v8_apply, e8, val_main_v7_apply, val_main_v4_apply, val_main_v1_apply]
  have hc : IntOp.cmpi .slt (x1 (idx_main_v1 (ix1 n))) (val_main_v3 (F := Ideal) (ix1 n)) = 0#1 := by
    apply eq_zero_of_ne_one
    intro h
    have h' := IntOp.cmpi_slt.1 h
    have e : (val_main_v3 (F := Ideal) (ix1 n)).toInt = 0 := by
      show (0#32 : BitVec 32).toInt = 0
      decide
    omega
  rw [hc, select_zero]

/-- The pixel numbers reshaped to a column [76800, 1] (the kernel's operand) at `(n, 0`) are the same numbers. -/
theorem column_eq (x1 : IVec S240x320 32) (h1 : S240x320.ShapeCasts ⟨2, ![76800, 1]⟩) (n : Fin 76800) :
    shapeCast ⟨2, ![76800, 1]⟩ x1 h1 (ix2 n 0) = x1 (idx_main_v1 (ix1 n)) := by
  refine shapeCast_apply x1 h1 (ix2 n 0) (idx_main_v1 (ix1 n)) ?_
  rewrite [Shape.rowMajor_val_two, Shape.rowMajor_val_two]
  have hn : n.val < 76800 := n.isLt
  show n.val / 320 * 320 + n.val % 320 = n.val * 1 + 0
  omega

/-- The features reshaped to [4, 128, 76800] (the reference's updates) at `(b, c, n)` are the features reshaped to
    [512, 76800] (the kernel's operand) at `(128 b + c, n)`. -/
theorem rows_eq (x0 : FVec Ideal S4x128x240x320 .f32) (h0 : S4x128x240x320.ShapeCasts ⟨2, ![512, 76800]⟩)
    (b : Fin 4) (c : Fin 128) (r : Fin 512) (hr : r.val = b.val * 128 + c.val) (n : Fin 76800) :
    val_main_v0 (F := Ideal) x0 (ix3 b c n) = shapeCast ⟨2, ![512, 76800]⟩ x0 h0 (ix2 r n) := by
  rw [val_main_v0_apply]
  refine (shapeCast_apply x0 h0 (ix2 r n) (idx_main_v0 (ix3 b c n)) ?_).symm
  rewrite [Shape.rowMajor_val_four, Shape.rowMajor_val_two]
  have hb : b.val < 4 := b.isLt
  have hc : c.val < 128 := c.isLt
  have hn : n.val < 76800 := n.isLt
  show ((((b.val * 128 + c.val) * 76800 + n.val) / 9830400 * 128 + ((b.val * 128 + c.val) * 76800 + n.val) / 76800 % 128) * 240
      + ((b.val * 128 + c.val) * 76800 + n.val) / 320 % 240) * 320 + ((b.val * 128 + c.val) * 76800 + n.val) % 320
    = r.val * 76800 + n.val
  omega

/-! ## The reference's result -/

/-- THE REFERENCE AT AN INDEX: the total, over the pixels whose number is the index's voxel, of the features of the index's
    row. -/
theorem ref_apply (x0 : FVec Ideal S4x128x240x320 .f32) (x1 : IVec S240x320 32)
    (hx : ∀ i, 0 ≤ (x1 i).toInt ∧ (x1 i).toInt < 129600)
    (h0 : S4x128x240x320.ShapeCasts ⟨2, ![512, 76800]⟩) (h1 : S240x320.ShapeCasts ⟨2, ![76800, 1]⟩)
    (i : S4x128x60x36x60.Idx) :
    val_main_v10 (F := Ideal) x0 x1 i
      = total (shapeCast ⟨2, ![512, 76800]⟩ x0 h0) (shapeCast ⟨2, ![76800, 1]⟩ x1 h1) (rowOf i) (flat i % 129600) := by
  have hf := flat_lt i
  have hidx : ∀ n : Fin 76800, 0 ≤ (val_main_v8 (F := Ideal) x1 (ix2 n 0)).toInt
      ∧ (val_main_v8 (F := Ideal) x1 (ix2 n 0)).toInt < 129600 := fun n => by
    rw [words_eq x1 hx n]; exact hx _
  have ei : idx_main_v10 i = ix3 (⟨flat i / 16588800, by omega⟩ : Fin 4) (⟨flat i / 129600 % 128, by omega⟩ : Fin 128)
      (⟨flat i % 129600, by omega⟩ : Fin 129600) := funext fun a => by
    match a with
    | ⟨0, _⟩ => rfl
    | ⟨1, _⟩ => rfl
    | ⟨2, _⟩ => rfl
  rw [val_main_v10_apply]
  unfold val_main_v9
  rw [ei, scatter_apply _ _ _ hidx, val_main_v2_apply, val_main_cst_apply]
  show Ideal.ofBits .f32 0x00000000#32 + _ = _
  rw [Ideal.ofBits_zero_f32, zero_add, total_eq_sum_hits]
  refine Finset.sum_congr (Finset.filter_congr fun n _ => ?_) fun n _ => ?_
  · rw [words_eq x1 hx n, column_eq x1 h1 n]
  · exact rows_eq x0 h0 _ _ (rowOf i) (by
      show flat i / 129600 = flat i / 16588800 * 128 + flat i / 129600 % 128
      omega) n

end Cert.ReferenceIdeal.RefValue

end
-- ==== Proof.Bridge.lean ====
/-
  The two results are one function of the arguments.

  Read at an index of [4, 128, 60, 36, 60] with row-major position `f`, both programs' results are the total, over the
  pixels whose voxel number is `f % 129600`, of row `f / 129600` of the features reshaped to [512, 76800]: the kernel's by
  summing features times one-hot entries tile by tile (`RunValue.result_apply`), the reference's by scattering
  (`RefValue.ref_apply`, where the voxel numbers are in range).
-/
import proofs.«405086_j89670327206299_1_alg».proof.Proof.KernelValue
import proofs.«405086_j89670327206299_1_alg».proof.Proof.RefScatter

noncomputable section

open Idealize.ShloMosaic

namespace Cert.Bridge

theorem ref_eq_result (x0 : FVec Ideal Cert.KernelIdeal.S4x128x240x320 .f32) (x1 : IVec Cert.KernelIdeal.S240x320 32)
    (hx : ∀ i, 0 ≤ (x1 i).toInt ∧ (x1 i).toInt < 129600) :
    Cert.ReferenceIdeal.Read.val_main_v10 (F := Ideal) x0 x1 = Cert.KernelIdeal.RunValue.result x0 x1 :=
  funext fun i => (Cert.ReferenceIdeal.RefValue.ref_apply x0 x1 hx _ _ i).trans
    (Cert.KernelIdeal.RunValue.result_apply x0 x1 i).symm

end Cert.Bridge

end
-- ==== Proof.lean ====
/-
  A scatter-add of image features into voxels, computed by the kernel as a matmul against one-hot tiles.

  The reference adds feature `(b, c, n)` of [4, 128, 76800] into voxel `p n` of row `(b, c)` of a zero [4, 128, 129600]
  array, for the voxel number `p n` of pixel `n`. The kernel reshapes the features to [512, 76800] and, for each of 64
  column tiles of 2048 voxels, sums over 75 pixel tiles the product of a [512, 1024] tile of features with a [1024, 2048]
  0/1 tile that has a one where a pixel's number is the column's; it keeps the first 129600 columns. Over the extended
  reals both are, at row `r` and voxel `v`, the sum of the features of row `r` over the pixels whose number is `v`
  (multiplying by one or zero and regrouping a sum need no finiteness).

  The statement carries one added precondition: every voxel number is in `[0, 129600)`. Below zero the reference
  re-reads the number from the end of the axis, which the kernel's comparison does not; that range is where the two
  differ, so the claim needs it.

  The frames are the generated ones (the reference's is its generated run with the result dropped); no rewrite was made by
  the ideal pass, so `preserves` is trivial; `algebraic` puts the kernel's run (`RunValue.run`) beside the reference's
  generated run and closes with `Bridge.ref_eq_result`.
-/
import proofs.«405086_j89670327206299_1_alg».proof.Defs
import proofs.«405086_j89670327206299_1_alg».proof.Proof.Gen.Kernel
import proofs.«405086_j89670327206299_1_alg».proof.Proof.Gen.Kernel.Skeleton
import proofs.«405086_j89670327206299_1_alg».proof.Proof.Gen.Kernel.Launch
import proofs.«405086_j89670327206299_1_alg».proof.Proof.Gen.Kernel.Points
import proofs.«405086_j89670327206299_1_alg».proof.Proof.Gen.Kernel.Frame
import proofs.«405086_j89670327206299_1_alg».proof.Proof.Gen.KernelIdeal
import proofs.«405086_j89670327206299_1_alg».proof.Proof.Gen.KernelIdeal.Skeleton
import proofs.«405086_j89670327206299_1_alg».proof.Proof.Gen.KernelIdeal.Launch
import proofs.«405086_j89670327206299_1_alg».proof.Proof.Gen.KernelIdeal.Points
import proofs.«405086_j89670327206299_1_alg».proof.Proof.Gen.KernelIdeal.Frame
import proofs.«405086_j89670327206299_1_alg».proof.Proof.Gen.ReferenceIdeal
import proofs.«405086_j89670327206299_1_alg».proof.Proof.Gen.Pre_finite_inputs
import proofs.«405086_j89670327206299_1_alg».proof.Proof.Gen.ReferenceIdeal.Run
import proofs.«405086_j89670327206299_1_alg».proof.Proof.Gen.ReferenceIdeal.Read
import proofs.«405086_j89670327206299_1_alg».proof.Proof.Bridge
import proofs.«405086_j89670327206299_1_alg».proof.Proof.IndexRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `RunValue.result` of arguments that agree: the kernel's by its run read as a value, the reference's
    because under the precondition its scatter is that function. -/
theorem algebraic : Cert.algebraic_KernelIdeal_ReferenceIdeal := by
  intro m ρ m' ρ' hpre hagree
  refine ⟨fun c => Cert.KernelIdeal.RunValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v10_eq]
  exact Cert.Bridge.ref_eq_result _ _ (fun i => Cert.IndexRange.word_range _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
